-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x1024 : Shape := ⟨4, ![2, 8, 2048, 1024]⟩
abbrev S1024x1024 : Shape := ⟨2, ![1024, 1024]⟩
abbrev S1024 : Shape := ⟨1, ![1024]⟩
abbrev S_ : Shape := ⟨0, ![]⟩

class Facts : Prop where
  bcast_S_S2x8x2048x1024 : S_.BroadcastsInDim S2x8x2048x1024 (![] : Fin 0 → Fin S2x8x2048x1024.rank)
  reducesTo_S2x8x2048x1024_S_d0_1_2_3 : S2x8x2048x1024.ReducesTo [0, 1, 2, 3] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S2x8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S2x8x2048x1024 .f32 := Host.absf main_arg0
  let main_cst : FVec F S_ .f32 := constant S_ .f32 0x7F800000#32
  let main_v1 : FVec F S2x8x2048x1024 .f32 := broadcastInDim S2x8x2048x1024 ![] bcast_S_S2x8x2048x1024 main_cst
  let main_v2 : IVec S2x8x2048x1024 1 := cmpf .olt main_v0 main_v1
  let main_c : IVec S_ 1 := constantI S_ 1 1#1
  let main_v3 : IVec S_ 1 := (fun x v => Host.reduce IntOp.andi x v reducesTo_S2x8x2048x1024_S_d0_1_2_3 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S2x8x2048x1024 : Shape := ⟨4, ![2, 8, 2048, 1024]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S16x2048x1024 : Shape := ⟨3, ![16, 2048, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S256x2048 : Shape := ⟨2, ![256, 2048]⟩

abbrev nBuf : Space → Nat
  | .hbm => 26
  | .vmem => 22
  | .smem => 0
  | _ => 0

abbrev bufTy : (tb : Table) → Fin (tcTables nBuf tb) → BufTy
  | .hbm, ⟨0, _⟩ => ⟨S2x8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S32768x1024, .f32⟩
  | .hbm, ⟨8, _⟩ => ⟨S32768x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S32768x1024, .bf16⟩
  | .hbm, ⟨19, _⟩ => ⟨S32768x1024, .bf16⟩
  | .hbm, ⟨20, _⟩ => ⟨S32768x1024, .bf16⟩
  | .hbm, ⟨21, _⟩ => ⟨S16x2048x1024, .bf16⟩
  | .hbm, ⟨22, _⟩ => ⟨S16x2048x1024, .bf16⟩
  | .hbm, ⟨23, _⟩ => ⟨S16x2048x1024, .bf16⟩
  | .hbm, ⟨24, _⟩ => ⟨S16x2048x1024, .f32⟩
  | .hbm, ⟨25, _⟩ => ⟨S2x8x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x256x1024, .f32⟩
  | .local _ .vmem, ⟨21, _⟩ => ⟨S1x256x1024, .f32⟩
  | _, _ => ⟨S2x8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S2x8x2048x1024_S32768x1024 : S2x8x2048x1024.ShapeCasts S32768x1024
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S32768x1024_S16x2048x1024 : S32768x1024.ShapeCasts S16x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S256x1024_S1x256x1024 : S256x1024.ShapeCasts S1x256x1024
  shapeCasts_S16x2048x1024_S2x8x2048x1024 : S16x2048x1024.ShapeCasts S2x8x2048x1024
  dot_S512x1024_S1024x1024_S512x1024_1_0_0_1_n_n_wf : DotDims.WF S512x1024 S1024x1024 S512x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .bf16 = 32 ∨ (Rect.block (s := S32768x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S32768x1024.size a
  hwx0_7 : ∀ i : grid0.Coords, EltTy.bits .bf16 = 32 ∨ (Rect.block (s := S32768x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S32768x1024.size a
  hwx0_8 : ∀ i : grid0.Coords, EltTy.bits .bf16 = 32 ∨ (Rect.block (s := S32768x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S32768x1024.size a
  hwx0_9 : ∀ i : grid0.Coords, EltTy.bits .bf16 = 32 ∨ (Rect.block (s := S32768x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S16x2048x1024.size a
  hwx1_0 : ∀ i : grid1.Coords, EltTy.bits .bf16 = 32 ∨ (Rect.block (s := S16x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S16x2048x1024.size a
  hwx1_1 : ∀ i : grid1.Coords, EltTy.bits .bf16 = 32 ∨ (Rect.block (s := S16x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S16x2048x1024.size a
  hwx1_2 : ∀ i : grid1.Coords, EltTy.bits .bf16 = 32 ∨ (Rect.block (s := S16x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S16x2048x1024.size a
  hwx1_3 : ∀ i : grid1.Coords, EltTy.bits .f32 = 32 ∨ (Rect.block (s := S16x2048x1024) S1x256x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v12) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x8x2048x1024 : Shape := ⟨4, ![2, 8, 2048, 1024]⟩
abbrev S1024x1024 : Shape := ⟨2, ![1024, 1024]⟩
abbrev S1024 : Shape := ⟨1, ![1024]⟩
abbrev S1x1x1x1024 : Shape := ⟨4, ![1, 1, 1, 1024]⟩
abbrev S_ : Shape := ⟨0, ![]⟩
abbrev S2x8x2048x2048 : Shape := ⟨4, ![2, 8, 2048, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2x8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S2x8x2048x1024, .f32⟩
  | .hbm, ⟨8, _⟩ => ⟨S1x1x1x1024, .f32⟩
  | .hbm, ⟨9, _⟩ => ⟨S2x8x2048x1024, .f32⟩
  | .hbm, ⟨10, _⟩ => ⟨S2x8x2048x1024, .f32⟩
  | .hbm, ⟨11, _⟩ => ⟨S2x8x2048x1024, .f32⟩
  | .hbm, ⟨12, _⟩ => ⟨S1x1x1x1024, .f32⟩
  | .hbm, ⟨13, _⟩ => ⟨S2x8x2048x1024, .f32⟩
  | .hbm, ⟨14, _⟩ => ⟨S2x8x2048x1024, .f32⟩
  | .hbm, ⟨15, _⟩ => ⟨S2x8x2048x1024, .f32⟩
  | .hbm, ⟨16, _⟩ => ⟨S1x1x1x1024, .f32⟩
  | .hbm, ⟨17, _⟩ => ⟨S2x8x2048x1024, .f32⟩
  | .hbm, ⟨18, _⟩ => ⟨S2x8x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x8x2048x2048, .f32⟩
  | .hbm, ⟨24, _⟩ => ⟨S2x8x2048x2048, .f32⟩
  | .hbm, ⟨25, _⟩ => ⟨S2x8x2048x2048, .f32⟩
  | .hbm, ⟨26, _⟩ => ⟨S2x8x2048x1024, .f32⟩
  | _, _ => ⟨S2x8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S1024_S1x1x1x1024_3 : S1024.BroadcastsInDim S1x1x1x1024 (![3] : Fin 1 → Fin S1x1x1x1024.rank)
  bcast_S1x1x1x1024_S2x8x2048x1024_0_1_2_3 : S1x1x1x1024.BroadcastsInDim S2x8x2048x1024 (![0, 1, 2, 3] : Fin 4 → Fin S2x8x2048x1024.rank)
  bcast_S_S2x8x2048x2048 : S_.BroadcastsInDim S2x8x2048x2048 (![] : Fin 0 → Fin S2x8x2048x2048.rank)
  dot_S2x8x2048x1024_S1024x1024_S2x8x2048x1024_3_1_012_0_n_n_wf : DotDims.WF S2x8x2048x1024 S1024x1024 S2x8x2048x1024 [3] [1] [0, 1, 2] [0] [] []
  dot_S2x8x2048x1024_S2x8x2048x1024_S2x8x2048x2048_3_3_2_2_01_01_wf : DotDims.WF S2x8x2048x1024 S2x8x2048x1024 S2x8x2048x2048 [3] [3] [2] [2] [0, 1] [0, 1]
  dot_S2x8x2048x2048_S2x8x2048x1024_S2x8x2048x1024_3_2_2_3_01_01_wf : DotDims.WF S2x8x2048x2048 S2x8x2048x1024 S2x8x2048x1024 [3] [2] [2] [3] [0, 1] [0, 1]

variable [Facts₀]

def dot_S2x8x2048x1024_S1024x1024_S2x8x2048x1024_3_1_012_0_n_n : DotDims S2x8x2048x1024 S1024x1024 S2x8x2048x1024 where
  lhsContracting := [3]
  rhsContracting := [1]
  lhsNonContracting := [0, 1, 2]
  rhsNonContracting := [0]
  lhsBatch := []
  rhsBatch := []
  wf := dot_S2x8x2048x1024_S1024x1024_S2x8x2048x1024_3_1_012_0_n_n_wf
def dot_S2x8x2048x1024_S2x8x2048x1024_S2x8x2048x2048_3_3_2_2_01_01 : DotDims S2x8x2048x1024 S2x8x2048x1024 S2x8x2048x2048 where
  lhsContracting := [3]
  rhsContracting := [3]
  lhsNonContracting := [2]
  rhsNonContracting := [2]
  lhsBatch := [0, 1]
  rhsBatch := [0, 1]
  wf := dot_S2x8x2048x1024_S2x8x2048x1024_S2x8x2048x2048_3_3_2_2_01_01_wf
def dot_S2x8x2048x2048_S2x8x2048x1024_S2x8x2048x1024_3_2_2_3_01_01 : DotDims S2x8x2048x2048 S2x8x2048x1024 S2x8x2048x1024 where
  lhsContracting := [3]
  rhsContracting := [2]
  lhsNonContracting := [2]
  rhsNonContracting := [3]
  lhsBatch := [0, 1]
  rhsBatch := [0, 1]
  wf := dot_S2x8x2048x2048_S2x8x2048x1024_S2x8x2048x1024_3_2_2_3_01_01_wf

class Facts : Prop extends Facts₀ where

variable [Facts]
-- ==== Proof.Spec.lean ====
/-
  The mathematics both programs compute, stated once over the extended reals and over literal shapes.

  Three affine maps of the rows of `x` (one per weight matrix and bias):
      q[b,h,s,e] = (∑ d, x[b,h,s,d] · Wq[e,d]) + bq[e]      (likewise k with Wk, bk and v with Wv, bv),
  then, per (b, h), the un-normalised attention product with the scale `1/32` applied to the scores:
      out[b,h,s,e] = ∑ t, ((∑ d, q[b,h,s,d] · k[b,h,t,d]) · (1/32)) · v[b,h,t,e].
  The kernel works on flattened rows — a [32768, 1024] matrix for the projections, then [16, 2048, 1024] stacks for
  the attention product — so the same two steps are also stated at those shapes (`proj2`, `attn3`).
  The scale: the kernel spells the f32 word of 1/32; the reference computes 1 / √1024. Both are the real 1/32.
-/
import Idealize.ShloMosaic.PureOps.Ideal
import Idealize.ShloMosaic.Lib.ValueIdx

noncomputable section

open scoped BigOperators

namespace Cert.Spec

open Idealize.ShloMosaic Idealize.ShloMosaic.ValueIdx

/-- The attention scale as the kernel spells it: the f32 word of `0.03125`. -/
abbrev scale : EReal := Ideal.ofBits .f32 0x3D000000#32

/-- One projection on flattened rows: row `r` of `X` against column `e` of the (already transposed) weight, plus the
    bias row's entry `e`. -/
def proj2 (X : (⟨2, ![32768, 1024]⟩ : Shape).Idx → EReal) (Wt : (⟨2, ![1024, 1024]⟩ : Shape).Idx → EReal)
    (b : (⟨2, ![1, 1024]⟩ : Shape).Idx → EReal) : (⟨2, ![32768, 1024]⟩ : Shape).Idx → EReal :=
  fun j => (∑ d : Fin 1024, X (ix2 (j 0 : Fin 32768) d) * Wt (ix2 d (j 1 : Fin 1024))) + b (ix2 (0 : Fin 1) (j 1 : Fin 1024))

/-- The attention product on a stack of 16 heads: scores of query row `s` against every key row `t`, scaled, then
    summed against the value rows. -/
def attn3 (Q K V : (⟨3, ![16, 2048, 1024]⟩ : Shape).Idx → EReal) : (⟨3, ![16, 2048, 1024]⟩ : Shape).Idx → EReal :=
  fun j => ∑ t : Fin 2048,
    ((∑ d : Fin 1024, Q (ix3 (j 0 : Fin 16) (j 1 : Fin 2048) d) * K (ix3 (j 0 : Fin 16) t d)) * scale)
      * V (ix3 (j 0 : Fin 16) t (j 2 : Fin 1024))

/-- One projection at the reference's shapes: `x[b,h,s,·]` against row `e` of `W`, plus `bias[e]`. -/
def proj4 (x : (⟨4, ![2, 8, 2048, 1024]⟩ : Shape).Idx → EReal) (W : (⟨2, ![1024, 1024]⟩ : Shape).Idx → EReal)
    (bias : (⟨1, ![1024]⟩ : Shape).Idx → EReal) : (⟨4, ![2, 8, 2048, 1024]⟩ : Shape).Idx → EReal :=
  fun i => (∑ d : Fin 1024, x (ix4 (i 0 : Fin 2) (i 1 : Fin 8) (i 2 : Fin 2048) d) * W (ix2 (i 3 : Fin 1024) d))
    + bias (ix1 (i 3 : Fin 1024))

/-- The whole result: the attention product of the three projections, per batch and head. -/
def G (x : (⟨4, ![2, 8, 2048, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal) :
    (⟨4, ![2, 8, 2048, 1024]⟩ : Shape).Idx → EReal :=
  fun i => ∑ t : Fin 2048,
    ((∑ d : Fin 1024, proj4 x Wq bq (ix4 (i 0 : Fin 2) (i 1 : Fin 8) (i 2 : Fin 2048) d)
        * proj4 x Wk bk (ix4 (i 0 : Fin 2) (i 1 : Fin 8) t d)) * scale)
      * proj4 x Wv bv (ix4 (i 0 : Fin 2) (i 1 : Fin 8) t (i 3 : Fin 1024))

/-! ## The scale's two spellings -/

/-- The f32 word `0x44800000` denotes the real 1024. -/
theorem ofBits_1024 : Ideal.ofBits .f32 0x44800000#32 = ((1024 : ℝ) : EReal) := by
  simp [Ideal.ofBits, Ideal.ieee, -EReal.coe_mul]; norm_num

/-- The f32 word `0x3F800000` denotes 1. -/
theorem ofBits_one : Ideal.ofBits .f32 0x3F800000#32 = ((1 : ℝ) : EReal) := by
  simp [Ideal.ofBits, Ideal.ieee, -EReal.coe_mul]; norm_num

/-- The f32 word `0x3D000000` denotes the real 1/32. -/
theorem scale_eq : scale = ((1 / 32 : ℝ) : EReal) := by
  simp [scale, Ideal.ofBits, Ideal.ieee, -EReal.coe_mul]; norm_num

/-- √1024 = 32, so the reference's `1 / √1024` is the kernel's word: both are 1/32. -/
theorem ref_scale :
    Ideal.div (Ideal.ofBits .f32 0x3F800000#32) (Ideal.sqrt (Ideal.ofBits .f32 0x44800000#32)) = scale := by
  have h32 : Real.sqrt 1024 = 32 := by
    rw [show (1024 : ℝ) = 32 ^ 2 by norm_num]; exact Real.sqrt_sq (by norm_num)
  rw [ofBits_1024, ofBits_one, scale_eq, Ideal.sqrt_coe, if_neg (by norm_num), h32,
    Ideal.div_coe (by norm_num : (32 : ℝ) ≠ 0), ← EReal.coe_mul]
  norm_num

end Cert.Spec

end
-- ==== Proof.RefSpec.lean ====
/-
  The reference's result, read one operation at a time, is `Spec.G` of its seven arguments: three `dot_general`s
  contracting the feature axis plus a broadcast bias, the score product contracting the feature axis per (batch, head),
  the scale `1 / √1024` (which is 1/32), and the product with the values contracting the key axis.
-/
import proofs.«102042_j40295383171639_1_alg».proof.Proof.Gen.ReferenceIdeal.Read
import proofs.«102042_j40295383171639_1_alg».proof.Proof.Spec
import Idealize.ShloMosaic.Lib.ValueIdx
import Idealize.ShloMosaic.PureOps.Ideal.Laws

noncomputable section

open scoped BigOperators

namespace Cert.ReferenceIdeal.RefSpec

open Idealize.ShloMosaic Idealize.ShloMosaic.TcCoe Idealize.ShloMosaic.ValueIdx Idealize.SL.Sem
open Cert.ReferenceIdeal Cert.ReferenceIdeal.Gen Cert.ReferenceIdeal.Read

/-- The query projection read at a point: the contraction of the row of `x` with the row of the weight, plus the bias entry. -/
theorem query_at (x0 : (⟨S2x8x2048x1024, .f32⟩ : BufTy).Contents (Elt Ideal)) (x1 : (⟨S1024x1024, .f32⟩ : BufTy).Contents (Elt Ideal))
    (x2 : (⟨S1024, .f32⟩ : BufTy).Contents (Elt Ideal)) (a : Fin 2) (b : Fin 8) (c : Fin 2048) (e : Fin 1024) :
    val_main_v3 (F := Ideal) x0 x1 x2 (ix4 a b c e) = Cert.Spec.proj4 x0 x1 x2 (ix4 a b c e) := by
  have hl : ∀ k : Fin 1024, lidx_main_v0 (ix4 a b c e) k = ix4 a b c k := fun k => funext fun t => Fin.ext (by
    match t with | ⟨0, _⟩ => rfl | ⟨1, _⟩ => rfl | ⟨2, _⟩ => rfl | ⟨3, _⟩ => rfl)
  have hr : ∀ k : Fin 1024, ridx_main_v0 (ix4 a b c e) k = ix2 e k := fun k => funext fun t => Fin.ext (by
    match t with | ⟨0, _⟩ => rfl | ⟨1, _⟩ => rfl)
  have hb : idx_main_v1 (idx_main_v2 (ix4 a b c e)) = ix1 e := funext fun t => Fin.ext (by
    match t with | ⟨0, _⟩ => rfl)
  rw [val_main_v3_apply, val_main_v0_apply, val_main_v2_apply, val_main_v1_apply, hb, Ideal.addf_def]
  simp only [hl, hr]
  rfl

/-- The key projection read at a point: the contraction of the row of `x` with the row of the weight, plus the bias entry. -/
theorem key_at (x0 : (⟨S2x8x2048x1024, .f32⟩ : BufTy).Contents (Elt Ideal)) (x3 : (⟨S1024x1024, .f32⟩ : BufTy).Contents (Elt Ideal))
    (x4 : (⟨S1024, .f32⟩ : BufTy).Contents (Elt Ideal)) (a : Fin 2) (b : Fin 8) (c : Fin 2048) (e : Fin 1024) :
    val_main_v7 (F := Ideal) x0 x3 x4 (ix4 a b c e) = Cert.Spec.proj4 x0 x3 x4 (ix4 a b c e) := by
  have hl : ∀ k : Fin 1024, lidx_main_v4 (ix4 a b c e) k = ix4 a b c k := fun k => funext fun t => Fin.ext (by
    match t with | ⟨0, _⟩ => rfl | ⟨1, _⟩ => rfl | ⟨2, _⟩ => rfl | ⟨3, _⟩ => rfl)
  have hr : ∀ k : Fin 1024, ridx_main_v4 (ix4 a b c e) k = ix2 e k := fun k => funext fun t => Fin.ext (by
    match t with | ⟨0, _⟩ => rfl | ⟨1, _⟩ => rfl)
  have hb : idx_main_v5 (idx_main_v6 (ix4 a b c e)) = ix1 e := funext fun t => Fin.ext (by
    match t with | ⟨0, _⟩ => rfl)
  rw [val_main_v7_apply, val_main_v4_apply, val_main_v6_apply, val_main_v5_apply, hb, Ideal.addf_def]
  simp only [hl, hr]
  rfl

/-- The value projection read at a point: the contraction of the row of `x` with the row of the weight, plus the bias entry. -/
theorem value_at (x0 : (⟨S2x8x2048x1024, .f32⟩ : BufTy).Contents (Elt Ideal)) (x5 : (⟨S1024x1024, .f32⟩ : BufTy).Contents (Elt Ideal))
    (x6 : (⟨S1024, .f32⟩ : BufTy).Contents (Elt Ideal)) (a : Fin 2) (b : Fin 8) (c : Fin 2048) (e : Fin 1024) :
    val_main_v11 (F := Ideal) x0 x5 x6 (ix4 a b c e) = Cert.Spec.proj4 x0 x5 x6 (ix4 a b c e) := by
  have hl : ∀ k : Fin 1024, lidx_main_v8 (ix4 a b c e) k = ix4 a b c k := fun k => funext fun t => Fin.ext (by
    match t with | ⟨0, _⟩ => rfl | ⟨1, _⟩ => rfl | ⟨2, _⟩ => rfl | ⟨3, _⟩ => rfl)
  have hr : ∀ k : Fin 1024, ridx_main_v8 (ix4 a b c e) k = ix2 e k := fun k => funext fun t => Fin.ext (by
    match t with | ⟨0, _⟩ => rfl | ⟨1, _⟩ => rfl)
  have hb : idx_main_v9 (idx_main_v10 (ix4 a b c e)) = ix1 e := funext fun t => Fin.ext (by
    match t with | ⟨0, _⟩ => rfl)
  rw [val_main_v11_apply, val_main_v8_apply, val_main_v10_apply, val_main_v9_apply, hb, Ideal.addf_def]
  simp only [hl, hr]
  rfl

/-- The broadcast scale `1 / √1024` is the specification's scale at every point. -/
theorem scale_at (i : S2x8x2048x2048.Idx) : val_main_v15 (F := Ideal) i = Cert.Spec.scale := by
  rw [val_main_v15_apply, val_main_v13_apply, val_main_cst_0_apply, val_main_v12_apply, val_main_cst_apply,
    Ideal.hostDivf_def, Ideal.hostUnary_sqrt_def, Ideal.ofBits_def, Ideal.ofBits_def]
  exact Cert.Spec.ref_scale

/-- The reference's result is the specification: the scaled scores of the query and key projections, summed against
    the value projection over the key axis. -/
theorem ref_eq_G (x0 : (⟨S2x8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) :
    val_main_v17 x0 x1 x2 x3 x4 x5 x6 = Cert.Spec.G x0 x1 x2 x3 x4 x5 x6 := by
  funext i
  obtain ⟨a, b, c, e, rfl⟩ : ∃ (a : Fin 2) (b : Fin 8) (c : Fin 2048) (e : Fin 1024), i = ix4 a b c e :=
    ⟨i 0, i 1, i 2, i 3, eq_ix4 i⟩
  rw [val_main_v17_apply]
  unfold Cert.Spec.G
  refine Finset.sum_congr rfl fun t _ => ?_
  have hsl : lidx_main_v17 (ix4 a b c e) t = ix4 a b c t := funext fun s => Fin.ext (by
    match s with | ⟨0, _⟩ => rfl | ⟨1, _⟩ => rfl | ⟨2, _⟩ => rfl | ⟨3, _⟩ => rfl)
  have hsr : ridx_main_v17 (ix4 a b c e) t = ix4 a b t e := funext fun s => Fin.ext (by
    match s with | ⟨0, _⟩ => rfl | ⟨1, _⟩ => rfl | ⟨2, _⟩ => rfl | ⟨3, _⟩ => rfl)
  have hql : ∀ k : Fin 1024, lidx_main_v14 (ix4 a b c t) k = ix4 a b c k := fun k => funext fun s => Fin.ext (by
    match s with | ⟨0, _⟩ => rfl | ⟨1, _⟩ => rfl | ⟨2, _⟩ => rfl | ⟨3, _⟩ => rfl)
  have hqr : ∀ k : Fin 1024, ridx_main_v14 (ix4 a b c t) k = ix4 a b t k := fun k => funext fun s => Fin.ext (by
    match s with | ⟨0, _⟩ => rfl | ⟨1, _⟩ => rfl | ⟨2, _⟩ => rfl | ⟨3, _⟩ => rfl)
  rw [hsl, hsr, val_main_v16_apply, scale_at, val_main_v14_apply, value_at, Ideal.mulf_def]
  simp only [hql, hqr, query_at, key_at]

end Cert.ReferenceIdeal.RefSpec

end
-- ==== Proof.Region0.lean ====
/-
  What the first region (the three projections) leaves in its three output arrays, for ANY contents `V` the region is
  entered with: each output array is `Spec.proj2` of the row matrix, one transposed weight and one bias row.
  A grid point `t` of 64 handles rows 512·t … 512·t+511; the weights and biases are whole blocks at every point.

  The three outputs are one computation on different operands: entry (p, q) of a point's result block is
      (∑ k, x[p,k] · w[k,q]) + b[0,q]
  for the point's row block `x`, a weight block `w` and a bias block `b` (the change of float format is the identity
  on the extended reals, and the product into a zero accumulator is the plain sum). Row p of the block at point `t`
  is row 512·t + p of the row matrix, and the weight and bias blocks are the whole arrays, so the entry is
  `Spec.proj2` at (512·t + p, q). Every row r lies in the block of point r / 512, so the blocks fill the array.
-/
import proofs.«102042_j40295383171639_1_alg».proof.Proof.Gen.KernelIdeal.Frame
import proofs.«102042_j40295383171639_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx Idealize.SL.Sem
open Cert.KernelIdeal Cert.KernelIdeal.Gen

/-! ## The body's arithmetic at an entry -/

/-- The body reads and writes each buffer from its corner (0, 0). -/
theorem corner : (![0, 0] : Fin 2 → Nat) = fun _ => 0 := funext fun a => by fin_cases a <;> rfl

/-- The product contracts the left operand's axis 1 with the right operand's axis 0: the left operand is read at
    (row of the entry, k), -/
theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_contr (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- and the right operand at (k, column of the entry). -/
theorem rhs_contr (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

set_option maxHeartbeats 200000 in
/-- The [512,1024] × [1024,1024] product into a zero accumulator, at entry (p, q): ∑ k, x[p,k] · w[k,q]. -/
theorem product_at (x : FVec Ideal S512x1024 .bf16) (w : FVec Ideal S1024x1024 .bf16) (p : Fin 512) (q : Fin 1024) :
    matmul dot_S512x1024_S1024x1024_S512x1024_1_0_0_1_n_n none x w (constant (F := Ideal) S512x1024 .f32 0x00000000#32) (ix2 p q)
      = ∑ k : Fin 1024, x (ix2 p k) * w (ix2 k q) := by
  show FloatOps.matmul dot_S512x1024_S1024x1024_S512x1024_1_0_0_1_n_n none x w (constant (F := Ideal) S512x1024 .f32 0x00000000#32) (ix2 p q) = _
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhs_row _ _
    | ⟨1, _⟩ => exact (lhs_contr _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhs_contr _ _).trans hk
    | ⟨1, _⟩ => exact rhs_col _ _)
  rw [el, er]

set_option maxHeartbeats 200000 in
/-- One projection's result block at entry (p, q), from the row block `x`, the weight block `w` and the bias block `b`:
    (∑ k, x[p,k] · w[k,q]) + b[0,q]. -/
theorem proj_at (x : Vec Ideal S512x1024 .bf16) (w : Vec Ideal S1024x1024 .bf16) (b : Vec Ideal S1x1024 .f32) (p : Fin 512) (q : Fin 1024) :
    k0_pay2 (F := Ideal) x w b (ix2 p q) = (∑ k : Fin 1024, x (ix2 p k) * w (ix2 k q)) + b (ix2 (0 : Fin 1) q) := by
  unfold k0_pay2 k0_pay1
  rw [truncf_apply, addf_apply, shapeCast_self, shapeCast_self, shapeCast_self, broadcastTo_1b_ab_apply, product_at]

/-- The k and v projections are the same operations on their own operands. -/
theorem projK_eq : @k0_pay3 = @k0_pay2 := rfl
theorem projV_eq : @k0_pay4 = @k0_pay2 := rfl

/-! ## Which block each point handles -/

/-- Point `t` takes row block `t` of the row matrix and of each output; every weight and bias is its one whole block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

variable (V : (c : Dev nD) → (b : Ref sig .tc) → Buf (Elt Ideal) ((c : Thread nD τ).loc b))

set_option maxHeartbeats 200000 in
/-- Entry (y₀, y₁) of the row block at point `t` is entry (512·t + y₀, y₁) of the row matrix. -/
theorem rows_at (c : Dev nD) (t : Fin cfg0.N) (y : S512x1024.Idx) (i : S32768x1024.Idx)
    (h0 : (i 0).val = t.val * 512 + (y 0).val) (h1 : (i 1).val = (y 1).val) :
    (iblk0 V c 0 t : Vec Ideal S512x1024 .bf16) y = (V c main_v1 : S32768x1024.Idx → EReal) i := by
  obtain ⟨e0, e1, -⟩ := block_index t
  unfold iblk0
  rw [View.read_apply]
  show V c main_v1 _ = V c main_v1 _
  congr 1
  funext a
  apply Fin.ext
  match a with
  | ⟨0, _⟩ => show win0_0.index t (0 : Fin 2) * 512 + 1 * (y 0).val = (i 0).val; rw [e0, h0]; omega
  | ⟨1, _⟩ => show win0_0.index t (1 : Fin 2) * 1024 + 1 * (y 1).val = (i 1).val; rw [e1, h1]; omega

set_option maxHeartbeats 200000 in
/-- The q weight's block at any point is the whole array. -/
theorem weightQ (c : Dev nD) (t : Fin cfg0.N) :
    (iblk0 V c 1 t : Vec Ideal S1024x1024 .bf16) = (V c main_v3 : S1024x1024.Idx → EReal) := by
  obtain ⟨-, -, e0, e1, -⟩ := block_index t
  unfold iblk0
  funext y
  rw [View.read_apply]
  show V c main_v3 _ = V c main_v3 _
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

set_option maxHeartbeats 200000 in
/-- The q bias's block at any point is the whole row. -/
theorem biasQ (c : Dev nD) (t : Fin cfg0.N) :
    (iblk0 V c 2 t : Vec Ideal S1x1024 .f32) = (V c main_v8 : S1x1024.Idx → EReal) := by
  obtain ⟨-, -, -, -, e0, e1, -⟩ := block_index t
  unfold iblk0
  funext y
  rw [View.read_apply]
  show V c main_v8 _ = V c main_v8 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega

set_option maxHeartbeats 200000 in
/-- The k weight's block at any point is the whole array. -/
theorem weightK (c : Dev nD) (t : Fin cfg0.N) :
    (iblk0 V c 3 t : Vec Ideal S1024x1024 .bf16) = (V c main_v5 : S1024x1024.Idx → EReal) := by
  obtain ⟨-, -, -, -, -, -, e0, e1, -⟩ := block_index t
  unfold iblk0
  funext y
  rw [View.read_apply]
  show V c main_v5 _ = V c main_v5 _
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

set_option maxHeartbeats 200000 in
/-- The k bias's block at any point is the whole row. -/
theorem biasK (c : Dev nD) (t : Fin cfg0.N) :
    (iblk0 V c 4 t : Vec Ideal S1x1024 .f32) = (V c main_v9 : S1x1024.Idx → EReal) := by
  obtain ⟨-, -, -, -, -, -, -, -, e0, e1, -⟩ := block_index t
  unfold iblk0
  funext y
  rw [View.read_apply]
  show V c main_v9 _ = V c main_v9 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 1024 + 1 * (y 1).val = (y 1).val; rw [e1]; omega

set_option maxHeartbeats 200000 in
/-- The v weight's block at any point is the whole array. -/
theorem weightV (c : Dev nD) (t : Fin cfg0.N) :
    (iblk0 V c 5 t : Vec Ideal S1024x1024 .bf16) = (V c main_v7 : S1024x1024.Idx → EReal) := by
  obtain ⟨-, -, -, -, -, -, -, -, -, -, e0, e1, -⟩ := block_index t
  unfold iblk0
  funext y
  rw [View.read_apply]
  show V c main_v7 _ = V c main_v7 _
  congr 1
  funext a
  apply Fin.ext
  match a with
  | ⟨0, _⟩ => show win0_5.index t (0 : Fin 2) * 1024 + 1 * (y 0).val = (y 0).val; rw [e0]; omega
  | ⟨1, _⟩ => show win0_5.index t (1 : Fin 2) * 1024 + 1 * (y 1).val = (y 1).val; rw [e1]; omega

set_option maxHeartbeats 200000 in
/-- The v bias's block at any point is the whole row. -/
theorem biasV (c : Dev nD) (t : Fin cfg0.N) :
    (iblk0 V c 6 t : Vec Ideal S1x1024 .f32) = (V c main_v10 : S1x1024.Idx → EReal) := by
  obtain ⟨-, -, -, -, -, -, -, -, -, -, -, -, e0, e1, -⟩ := block_index t
  unfold iblk0
  funext y
  rw [View.read_apply]
  show V c main_v10 _ = V c main_v10 _
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 1024 + 1 * (y 1).val = (y 1).val; rw [e1]; omega

/-! ## A point's result block is its rows of the projection -/

set_option maxHeartbeats 200000 in
/-- With the weight block the whole array `Wt` and the bias block the whole row `B`, entry (p, q) of the result at
    point `t` is the projection of the row matrix at any index `i` = (512·t + p, q). -/
theorem entry_eq (c : Dev nD) (t : Fin cfg0.N) (Wt : S1024x1024.Idx → EReal) (B : S1x1024.Idx → EReal)
    (w : Vec Ideal S1024x1024 .bf16) (b : Vec Ideal S1x1024 .f32) (hw : w = Wt) (hb : b = B)
    (p : Fin 512) (q : Fin 1024) (i : S32768x1024.Idx) (h0 : (i 0).val = t.val * 512 + p.val) (h1 : (i 1).val = q.val) :
    k0_pay2 (F := Ideal) (iblk0 V c 0 t) w b (ix2 p q) = Cert.Spec.proj2 (V c main_v1) Wt B i := by
  subst hw hb
  have hq : (i 1 : Fin 1024) = q := Fin.ext h1
  rw [proj_at]
  unfold Cert.Spec.proj2
  rw [hq]
  congr 1
  exact Finset.sum_congr rfl fun k _ => congrArg (· * w (ix2 k q)) (rows_at V c t (ix2 p k) (ix2 (i 0 : Fin 32768) k) h0 rfl)

set_option maxHeartbeats 200000 in
/-- What point `t` writes back to the q output is block `t` of the q projection. -/
theorem flushedQ (c : Dev nD) (t : Fin cfg0.N) :
    (dat0 (F := Ideal) V c).flushed 7 t
      = ((cfg0.win 7).blk t).view.read (Elt Ideal) (Cert.Spec.proj2 (V c main_v1) (V c main_v3) (V c main_v8)) := by
  show (cfg0.win 7).cut (grid0.coords t) ((dat0 V c).after 7 t) = _
  rw [after0_7]
  unfold out0_7
  rw [View.canon_unit_zero corner]
  simp only [View.ld_unit_zero (S := S512x1024) corner, View.ld_unit_zero (S := S1024x1024) corner, View.ld_unit_zero (S := S1x1024) corner]
  obtain ⟨-, -, -, -, -, -, -, -, -, -, -, -, -, -, e0, e1, -⟩ := block_index t
  refine funext fun (j : S512x1024.Idx) => ?_
  obtain ⟨p, q, rfl⟩ : ∃ (p : Fin 512) (q : Fin 1024), j = ix2 p q := ⟨j 0, j 1, eq_ix2 j⟩
  show k0_pay2 (F := Ideal) (iblk0 V c 0 t) (iblk0 V c 1 t) (iblk0 V c 2 t) (ix2 p q)
    = Cert.Spec.proj2 (V c main_v1) (V c main_v3) (V c main_v8) (((cfg0.win 7).blk t).view.emb (ix2 p q))
  refine entry_eq V c t (V c main_v3) (V c main_v8) (iblk0 V c 1 t) (iblk0 V c 2 t) (weightQ V c t) (biasQ V c t) p q _ ?_ ?_
  · show win0_7.index t (0 : Fin 2) * 512 + 1 * p.val = _; rw [e0]; omega
  · show win0_7.index t (1 : Fin 2) * 1024 + 1 * q.val = _; rw [e1]; omega

set_option maxHeartbeats 200000 in
/-- What point `t` writes back to the k output is block `t` of the k projection. -/
theorem flushedK (c : Dev nD) (t : Fin cfg0.N) :
    (dat0 (F := Ideal) V c).flushed 8 t
      = ((cfg0.win 8).blk t).view.read (Elt Ideal) (Cert.Spec.proj2 (V c main_v1) (V c main_v5) (V c main_v9)) := by
  show (cfg0.win 8).cut (grid0.coords t) ((dat0 V c).after 8 t) = _
  rw [after0_8]
  unfold out0_8
  rw [View.canon_unit_zero corner, projK_eq]
  simp only [View.ld_unit_zero (S := S512x1024) corner, View.ld_unit_zero (S := S1024x1024) corner, View.ld_unit_zero (S := S1x1024) corner]
  obtain ⟨-, -, -, -, -, -, -, -, -, -, -, -, -, -, -, -, e0, e1, -⟩ := block_index t
  refine funext fun (j : S512x1024.Idx) => ?_
  obtain ⟨p, q, rfl⟩ : ∃ (p : Fin 512) (q : Fin 1024), j = ix2 p q := ⟨j 0, j 1, eq_ix2 j⟩
  show k0_pay2 (F := Ideal) (iblk0 V c 0 t) (iblk0 V c 3 t) (iblk0 V c 4 t) (ix2 p q)
    = Cert.Spec.proj2 (V c main_v1) (V c main_v5) (V c main_v9) (((cfg0.win 8).blk t).view.emb (ix2 p q))
  refine entry_eq V c t (V c main_v5) (V c main_v9) (iblk0 V c 3 t) (iblk0 V c 4 t) (weightK V c t) (biasK V c t) p q _ ?_ ?_
  · show win0_8.index t (0 : Fin 2) * 512 + 1 * p.val = _; rw [e0]; omega
  · show win0_8.index t (1 : Fin 2) * 1024 + 1 * q.val = _; rw [e1]; omega

set_option maxHeartbeats 200000 in
/-- What point `t` writes back to the v output is block `t` of the v projection. -/
theorem flushedV (c : Dev nD) (t : Fin cfg0.N) :
    (dat0 (F := Ideal) V c).flushed 9 t
      = ((cfg0.win 9).blk t).view.read (Elt Ideal) (Cert.Spec.proj2 (V c main_v1) (V c main_v7) (V c main_v10)) := by
  show (cfg0.win 9).cut (grid0.coords t) ((dat0 V c).after 9 t) = _
  rw [after0_9]
  unfold out0_9
  rw [View.canon_unit_zero corner, projV_eq]
  simp only [View.ld_unit_zero (S := S512x1024) corner, View.ld_unit_zero (S := S1024x1024) corner, View.ld_unit_zero (S := S1x1024) corner]
  obtain ⟨-, -, -, -, -, -, -, -, -, -, -, -, -, -, -, -, -, -, e0, e1⟩ := block_index t
  refine funext fun (j : S512x1024.Idx) => ?_
  obtain ⟨p, q, rfl⟩ : ∃ (p : Fin 512) (q : Fin 1024), j = ix2 p q := ⟨j 0, j 1, eq_ix2 j⟩
  show k0_pay2 (F := Ideal) (iblk0 V c 0 t) (iblk0 V c 5 t) (iblk0 V c 6 t) (ix2 p q)
    = Cert.Spec.proj2 (V c main_v1) (V c main_v7) (V c main_v10) (((cfg0.win 9).blk t).view.emb (ix2 p q))
  refine entry_eq V c t (V c main_v7) (V c main_v10) (iblk0 V c 5 t) (iblk0 V c 6 t) (weightV V c t) (biasV V c t) p q _ ?_ ?_
  · show win0_9.index t (0 : Fin 2) * 512 + 1 * p.val = _; rw [e0]; omega
  · show win0_9.index t (1 : Fin 2) * 1024 + 1 * q.val = _; rw [e1]; omega

/-! ## The blocks fill each output array -/

/-- An index of an output array is in point `t`'s block iff each coordinate is in the block's range on its axis. -/
theorem mem_blockQ (t : Fin cfg0.N) (i : S32768x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v11_0).slice (win0_7.rect t)).set ↔ _
  rw [View.set_slice_whole, Rect.mem_set_unit]
  exact Iff.rfl
theorem mem_blockK (t : Fin cfg0.N) (i : S32768x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v11_1).slice (win0_8.rect t)).set ↔ _
  rw [View.set_slice_whole, Rect.mem_set_unit]
  exact Iff.rfl
theorem mem_blockV (t : Fin cfg0.N) (i : S32768x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v11_2).slice (win0_9.rect t)).set ↔ _
  rw [View.set_slice_whole, Rect.mem_set_unit]
  exact Iff.rfl

/-- Row r belongs to point r / 512, one of the 64. -/
theorem point_of_row (i : S32768x1024.Idx) : ∃ t : Fin cfg0.N, t.val = (i 0).val / 512 := by
  have hN : cfg0.N = 64 := N_0
  have hi0 : (i 0).val < 32768 := (i 0).isLt
  exact ⟨⟨(i 0).val / 512, by rw [hN]; omega⟩, rfl⟩

set_option maxHeartbeats 200000 in
theorem coverQ (i : S32768x1024.Idx) : ∃ t : Fin cfg0.N, (cfg0.win 7).flush t = true ∧ i ∈ ((cfg0.win 7).blk t).view.set := by
  have hi1 : (i 1).val < 1024 := (i 1).isLt
  obtain ⟨t, ht⟩ := point_of_row i
  obtain ⟨-, -, -, -, -, -, -, -, -, -, -, -, -, -, e0, e1, -⟩ := block_index t
  refine ⟨t, flush0_7 t, ?_⟩
  rw [mem_blockQ]
  intro a
  match a with
  | ⟨0, _⟩ => show win0_7.index t (0 : Fin 2) * 512 ≤ (i 0).val ∧ (i 0).val < win0_7.index t (0 : Fin 2) * 512 + 512; rw [e0, ht]; omega
  | ⟨1, _⟩ => show win0_7.index t (1 : Fin 2) * 1024 ≤ (i 1).val ∧ (i 1).val < win0_7.index t (1 : Fin 2) * 1024 + 1024; rw [e1]; omega

set_option maxHeartbeats 200000 in
theorem coverK (i : S32768x1024.Idx) : ∃ t : Fin cfg0.N, (cfg0.win 8).flush t = true ∧ i ∈ ((cfg0.win 8).blk t).view.set := by
  have hi1 : (i 1).val < 1024 := (i 1).isLt
  obtain ⟨t, ht⟩ := point_of_row i
  obtain ⟨-, -, -, -, -, -, -, -, -, -, -, -, -, -, -, -, e0, e1, -⟩ := block_index t
  refine ⟨t, flush0_8 t, ?_⟩
  rw [mem_blockK]
  intro a
  match a with
  | ⟨0, _⟩ => show win0_8.index t (0 : Fin 2) * 512 ≤ (i 0).val ∧ (i 0).val < win0_8.index t (0 : Fin 2) * 512 + 512; rw [e0, ht]; omega
  | ⟨1, _⟩ => show win0_8.index t (1 : Fin 2) * 1024 ≤ (i 1).val ∧ (i 1).val < win0_8.index t (1 : Fin 2) * 1024 + 1024; rw [e1]; omega

set_option maxHeartbeats 200000 in
theorem coverV (i : S32768x1024.Idx) : ∃ t : Fin cfg0.N, (cfg0.win 9).flush t = true ∧ i ∈ ((cfg0.win 9).blk t).view.set := by
  have hi1 : (i 1).val < 1024 := (i 1).isLt
  obtain ⟨t, ht⟩ := point_of_row i
  obtain ⟨-, -, -, -, -, -, -, -, -, -, -, -, -, -, -, -, -, -, e0, e1⟩ := block_index t
  refine ⟨t, flush0_9 t, ?_⟩
  rw [mem_blockV]
  intro a
  match a with
  | ⟨0, _⟩ => show win0_9.index t (0 : Fin 2) * 512 ≤ (i 0).val ∧ (i 0).val < win0_9.index t (0 : Fin 2) * 512 + 512; rw [e0, ht]; omega
  | ⟨1, _⟩ => show win0_9.index t (1 : Fin 2) * 1024 ≤ (i 1).val ∧ (i 1).val < win0_9.index t (1 : Fin 2) * 1024 + 1024; rw [e1]; omega

/-! ## The three output arrays -/

/-- The q output: rows of `main_v1` against `main_v3` plus `main_v8`. -/
theorem arr0_7 (c : Dev nD) :
    (dat0 (F := Ideal) V c).arrAt 7 cfg0.N = Cert.Spec.proj2 (V c main_v1) (V c main_v3) (V c main_v8) :=
  (dat0 (F := Ideal) V c).arrAt_eq_of_cover 7 _ (fun t _ => flushedQ V c t) coverQ

/-- The k output: rows of `main_v1` against `main_v5` plus `main_v9`. -/
theorem arr0_8 (c : Dev nD) :
    (dat0 (F := Ideal) V c).arrAt 8 cfg0.N = Cert.Spec.proj2 (V c main_v1) (V c main_v5) (V c main_v9) :=
  (dat0 (F := Ideal) V c).arrAt_eq_of_cover 8 _ (fun t _ => flushedK V c t) coverK

/-- The v output: rows of `main_v1` against `main_v7` plus `main_v10`. -/
theorem arr0_9 (c : Dev nD) :
    (dat0 (F := Ideal) V c).arrAt 9 cfg0.N = Cert.Spec.proj2 (V c main_v1) (V c main_v7) (V c main_v10) :=
  (dat0 (F := Ideal) V c).arrAt_eq_of_cover 9 _ (fun t _ => flushedV V c t) coverV

end Cert.KernelIdeal.Region0

end
-- ==== Proof.Region1.lean ====
/-
  What the second region (the attention product) leaves in its output array, for ANY contents `V` the region is entered
  with: `Spec.attn3` of the three stacks. Grid point (bh, qi) of 16 × 8 handles head `bh`, query rows 256·qi … 256·qi+255,
  against that head's whole key and value blocks.

  The steps: each of the two contractions read at an index as a sum over its one contracted axis (queries against keys
  along the feature axis; scaled scores against values along the key axis); the body's result at one entry as the double
  sum of its three blocks; each block's entry as an entry of its stack (block index × block size + the place inside the
  block); so each point writes back its block of `Spec.attn3`; the 128 blocks tile the output stack (row r of head h
  lies in block (h, r / 256)), hence the array ends as `Spec.attn3`.
-/
import proofs.«102042_j40295383171639_1_alg».proof.Proof.Gen.KernelIdeal.Frame
import proofs.«102042_j40295383171639_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen

theorem off0 : (![0, 0, 0] : Fin 3 → Nat) = fun _ => 0 := funext fun a => by fin_cases a <;> rfl

/-! ## Operand indices of the two contractions -/

theorem qk_lhs_0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem qk_lhs_1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
theorem qk_rhs_0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem qk_rhs_1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

theorem pv_lhs_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem pv_lhs_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem pv_rhs_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem pv_rhs_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- The score product at (p, t): row p of the queries against row t of the keys. -/
theorem scores_apply (a : FVec Ideal S256x1024 .bf16) (b : FVec Ideal S2048x1024 .bf16) (p : Fin 256) (t : Fin 2048) :
    matmul dot_S256x1024_S2048x1024_S256x2048_1_1_0_0_n_n none a b (constant S256x2048 .f32 0x00000000#32) (ix2 p t)
      = ∑ d : Fin 1024, a (ix2 p d) * b (ix2 t d) := by
  refine (Ideal.matmul_constant_zero_apply dot_S256x1024_S2048x1024_S256x2048_1_1_0_0_n_n none a b (ix2 p t)).trans ?_
  rw [← Equiv.sum_comp (contrEquiv1 dot_S256x1024_S2048x1024_S256x2048_1_1_0_0_n_n 1024 rfl rfl).symm]
  refine Finset.sum_congr rfl fun d _ => ?_
  have hd := contrEquiv1_symm_val dot_S256x1024_S2048x1024_S256x2048_1_1_0_0_n_n 1024 rfl rfl d
  have el : dot_S256x1024_S2048x1024_S256x2048_1_1_0_0_n_n.lhsIdx (ix2 p t) ((contrEquiv1 dot_S256x1024_S2048x1024_S256x2048_1_1_0_0_n_n 1024 rfl rfl).symm d) = ix2 p d := funext fun a => Fin.ext (by
    match a with
    | ⟨0, _⟩ => exact qk_lhs_0 _ _
    | ⟨1, _⟩ => exact (qk_lhs_1 _ _).trans hd)
  have er : dot_S256x1024_S2048x1024_S256x2048_1_1_0_0_n_n.rhsIdx (ix2 p t) ((contrEquiv1 dot_S256x1024_S2048x1024_S256x2048_1_1_0_0_n_n 1024 rfl rfl).symm d) = ix2 t d := funext fun a => Fin.ext (by
    match a with
    | ⟨0, _⟩ => exact qk_rhs_0 _ _
    | ⟨1, _⟩ => exact (qk_rhs_1 _ _).trans hd)
  rw [el, er]

/-- The weighted sum of value rows at (p, e). -/
theorem mix_apply (a : FVec Ideal S256x2048 .bf16) (b : FVec Ideal S2048x1024 .bf16) (p : Fin 256) (e : Fin 1024) :
    matmul dot_S256x2048_S2048x1024_S256x1024_1_0_0_1_n_n none a b (constant S256x1024 .f32 0x00000000#32) (ix2 p e)
      = ∑ t : Fin 2048, a (ix2 p t) * b (ix2 t e) := by
  refine (Ideal.matmul_constant_zero_apply dot_S256x2048_S2048x1024_S256x1024_1_0_0_1_n_n none a b (ix2 p e)).trans ?_
  rw [← Equiv.sum_comp (contrEquiv1 dot_S256x2048_S2048x1024_S256x1024_1_0_0_1_n_n 2048 rfl rfl).symm]
  refine Finset.sum_congr rfl fun t _ => ?_
  have ht := contrEquiv1_symm_val dot_S256x2048_S2048x1024_S256x1024_1_0_0_1_n_n 2048 rfl rfl t
  have el : dot_S256x2048_S2048x1024_S256x1024_1_0_0_1_n_n.lhsIdx (ix2 p e) ((contrEquiv1 dot_S256x2048_S2048x1024_S256x1024_1_0_0_1_n_n 2048 rfl rfl).symm t) = ix2 p t := funext fun a => Fin.ext (by
    match a with
    | ⟨0, _⟩ => exact pv_lhs_0 _ _
    | ⟨1, _⟩ => exact (pv_lhs_1 _ _).trans ht)
  have er : dot_S256x2048_S2048x1024_S256x1024_1_0_0_1_n_n.rhsIdx (ix2 p e) ((contrEquiv1 dot_S256x2048_S2048x1024_S256x1024_1_0_0_1_n_n 2048 rfl rfl).symm t) = ix2 t e := funext fun a => Fin.ext (by
    match a with
    | ⟨0, _⟩ => exact (pv_rhs_0 _ _).trans ht
    | ⟨1, _⟩ => exact pv_rhs_1 _ _)
  rw [el, er]

/-- One entry of the body's result: the scaled scores of query row p against every key row, each weighting that
    key's value row at column e. Format changes and the leading unit axis do not change a value. -/
theorem pay_apply (q : FVec Ideal S1x256x1024 .bf16) (k v : FVec Ideal S1x2048x1024 .bf16)
    (u : Fin 1) (p : Fin 256) (e : Fin 1024) :
    k1_pay1 (F := Ideal) q k v (ix3 u p e)
      = ∑ t : Fin 2048, ((∑ d : Fin 1024, q (ix3 (0 : Fin 1) p d) * k (ix3 (0 : Fin 1) t d)) * Cert.Spec.scale)
          * v (ix3 (0 : Fin 1) t e) := by
  unfold k1_pay1
  refine (shapeCast_ab_1ab_apply _ _ u p e).trans ?_
  refine (mix_apply _ _ p e).trans ?_
  refine Finset.sum_congr rfl fun t _ => ?_
  refine congrArg₂ (· * ·) ?_ (shapeCast_1ab_ab_apply _ _ t e)
  show matmul (F := Ideal) dot_S256x1024_S2048x1024_S256x2048_1_1_0_0_n_n none _ _ (constant (F := Ideal) S256x2048 .f32 0x00000000#32) (ix2 p t) * Cert.Spec.scale = _
  refine congrArg (· * Cert.Spec.scale) ?_
  refine (scores_apply _ _ p t).trans ?_
  refine Finset.sum_congr rfl fun d _ => ?_
  exact congrArg₂ (· * ·) (shapeCast_1ab_ab_apply _ _ p d) (shapeCast_1ab_ab_apply _ _ t d)

/-! ## Where each grid point's blocks sit -/

/-- The block indices over the 16 × 8 grid: the query and output blocks share (head, row-block, 0); the key and value
    blocks are (head, 0, 0). -/
theorem blk_idx : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (2 : Fin 3) = 0 ∧ win1_3.index t (0 : Fin 3) ≤ 15 ∧ win1_3.index t (1 : Fin 3) ≤ 7 :=
  (by decide +kernel : ∀ t : Fin grid1.N, _)

/-- Every (head, row-block) pair is some grid point's output block. -/
theorem blk_onto : ∀ (h : Fin 16) (r : Fin 8), ∃ t : Fin cfg1.N, win1_3.index t = ![h.val, r.val, 0] :=
  (by decide +kernel : ∀ (h : Fin 16) (r : Fin 8), ∃ t : Fin grid1.N, win1_3.index t = ![h.val, r.val, 0])

variable (V : (c : Dev nD) → (b : Ref sig .tc) → Buf (Elt Ideal) ((c : Thread nD τ).loc b))

/-! ## The input blocks as pieces of the three stacks -/

/-- Entry (0, p, d) of a point's query block is the query stack at (head, 256·rowblock + p, d). -/
theorem q_read (c : Dev nD) (t : Fin cfg1.N) (p : Fin 256) (d : Fin 1024) (i : S16x2048x1024.Idx)
    (h0 : (i 0).val = win1_3.index t (0 : Fin 3)) (h1 : (i 1).val = win1_3.index t (1 : Fin 3) * 256 + p.val)
    (h2 : (i 2).val = d.val) :
    (iblk1 V c 0 t : Vec Ideal S1x256x1024 .bf16) (ix3 (0 : Fin 1) p d) = (V c main_v12 : S16x2048x1024.Idx → EReal) i := by
  obtain ⟨e0, e1, e2, -⟩ := blk_idx t
  unfold iblk1
  rw [View.read_apply]
  show V c main_v12 _ = V c main_v12 _
  refine congrArg (V c main_v12) (funext fun a => Fin.ext ?_)
  match a with
  | ⟨0, _⟩ => show win1_0.index t (0 : Fin 3) * 1 + 1 * (0 : Fin 1).val = (i 0).val; rw [e0, h0]; simp
  | ⟨1, _⟩ => show win1_0.index t (1 : Fin 3) * 256 + 1 * p.val = (i 1).val; rw [e1, h1]; omega
  | ⟨2, _⟩ => show win1_0.index t (2 : Fin 3) * 1024 + 1 * d.val = (i 2).val; rw [e2, h2]; omega

/-- Entry (0, s, d) of a point's key block is the key stack at (head, s, d): the whole head. -/
theorem k_read (c : Dev nD) (t : Fin cfg1.N) (s : Fin 2048) (d : Fin 1024) (i : S16x2048x1024.Idx)
    (h0 : (i 0).val = win1_3.index t (0 : Fin 3)) (h1 : (i 1).val = s.val) (h2 : (i 2).val = d.val) :
    (iblk1 V c 1 t : Vec Ideal S1x2048x1024 .bf16) (ix3 (0 : Fin 1) s d) = (V c main_v13 : S16x2048x1024.Idx → EReal) i := by
  obtain ⟨-, -, -, e0, e1, e2, -⟩ := blk_idx t
  unfold iblk1
  rw [View.read_apply]
  show V c main_v13 _ = V c main_v13 _
  refine congrArg (V c main_v13) (funext fun a => Fin.ext ?_)
  match a with
  | ⟨0, _⟩ => show win1_1.index t (0 : Fin 3) * 1 + 1 * (0 : Fin 1).val = (i 0).val; rw [e0, h0]; simp
  | ⟨1, _⟩ => show win1_1.index t (1 : Fin 3) * 2048 + 1 * s.val = (i 1).val; rw [e1, h1]; omega
  | ⟨2, _⟩ => show win1_1.index t (2 : Fin 3) * 1024 + 1 * d.val = (i 2).val; rw [e2, h2]; omega

/-- Entry (0, s, e) of a point's value block is the value stack at (head, s, e): the whole head. -/
theorem v_read (c : Dev nD) (t : Fin cfg1.N) (s : Fin 2048) (e : Fin 1024) (i : S16x2048x1024.Idx)
    (h0 : (i 0).val = win1_3.index t (0 : Fin 3)) (h1 : (i 1).val = s.val) (h2 : (i 2).val = e.val) :
    (iblk1 V c 2 t : Vec Ideal S1x2048x1024 .bf16) (ix3 (0 : Fin 1) s e) = (V c main_v14 : S16x2048x1024.Idx → EReal) i := by
  obtain ⟨-, -, -, -, -, -, e0, e1, e2, -⟩ := blk_idx t
  unfold iblk1
  rw [View.read_apply]
  show V c main_v14 _ = V c main_v14 _
  refine congrArg (V c main_v14) (funext fun a => Fin.ext ?_)
  match a with
  | ⟨0, _⟩ => show win1_2.index t (0 : Fin 3) * 1 + 1 * (0 : Fin 1).val = (i 0).val; rw [e0, h0]; simp
  | ⟨1, _⟩ => show win1_2.index t (1 : Fin 3) * 2048 + 1 * s.val = (i 1).val; rw [e1, h1]; omega
  | ⟨2, _⟩ => show win1_2.index t (2 : Fin 3) * 1024 + 1 * e.val = (i 2).val; rw [e2, h2]; omega

/-! ## What a point writes back, and the whole array -/

/-- The body's result at a point, entry by entry, is the attention product at the entry's place in the output stack. -/
theorem blk_val (c : Dev nD) (t : Fin cfg1.N) (j : S1x256x1024.Idx) :
    k1_pay1 (F := Ideal) (iblk1 V c 0 t) (iblk1 V c 1 t) (iblk1 V c 2 t) j
      = Cert.Spec.attn3 (V c main_v12) (V c main_v13) (V c main_v14) (((cfg1.win 3).blk t).view.emb j) := by
  obtain ⟨u, p, e, rfl⟩ : ∃ (u : Fin 1) (p : Fin 256) (e : Fin 1024), j = ix3 u p e := ⟨j 0, j 1, j 2, eq_ix3 j⟩
  refine (pay_apply (iblk1 V c 0 t) (iblk1 V c 1 t) (iblk1 V c 2 t) u p e).trans ?_
  have hu : u.val = 0 := by omega
  have g0 : ((((cfg1.win 3).blk t).view.emb (ix3 u p e)) 0).val = win1_3.index t (0 : Fin 3) := by
    show win1_3.index t (0 : Fin 3) * 1 + 1 * u.val = _; omega
  have g1 : ((((cfg1.win 3).blk t).view.emb (ix3 u p e)) 1).val = win1_3.index t (1 : Fin 3) * 256 + p.val := by
    show win1_3.index t (1 : Fin 3) * 256 + 1 * p.val = _; omega
  have g2 : ((((cfg1.win 3).blk t).view.emb (ix3 u p e)) 2).val = e.val := by
    obtain ⟨-, -, -, -, -, -, -, -, -, e2, -⟩ := blk_idx t
    show win1_3.index t (2 : Fin 3) * 1024 + 1 * e.val = _; rw [e2]; omega
  unfold Cert.Spec.attn3
  refine Finset.sum_congr rfl fun s _ => ?_
  refine congrArg₂ (· * ·) (congrArg (· * Cert.Spec.scale) (Finset.sum_congr rfl fun d _ => congrArg₂ (· * ·) ?_ ?_)) ?_
  · exact q_read V c t p d _ g0 g1 rfl
  · exact k_read V c t s d _ g0 rfl rfl
  · exact v_read V c t s e _ g0 rfl g2

/-- What grid point t writes back is its block of the attention product. -/
theorem flushed_eq (c : Dev nD) (t : Fin cfg1.N) :
    (dat1 (F := Ideal) V c).flushed 3 t
      = ((cfg1.win 3).blk t).view.read (Elt Ideal) (Cert.Spec.attn3 (V c main_v12) (V c main_v13) (V c main_v14)) := by
  show (cfg1.win 3).cut (grid1.coords t) ((dat1 V c).after 3 t) = _
  rw [after1_3]
  unfold out1_3
  rw [View.canon_unit_zero off0]
  simp only [View.ld_unit_zero (S := S1x256x1024) off0, View.ld_unit_zero (S := S1x2048x1024) off0]
  funext j
  exact blk_val V c t j

/-- An index of the output stack lies in point t's block iff each coordinate lies in the block's range on its axis. -/
theorem mem_blk (t : Fin cfg1.N) (i : S16x2048x1024.Idx) :
    i ∈ ((cfg1.win 3).blk t).view.set ↔ ∀ a : Fin 3, win1_3.index t a * S1x256x1024.size a ≤ (i a).val ∧ (i a).val < win1_3.index t a * S1x256x1024.size a + S1x256x1024.size a := by
  show i ∈ ((View.whole main_v15).slice (win1_3.rect t)).set ↔ _
  rw [View.set_slice_whole, Rect.mem_set_unit]
  exact Iff.rfl

/-- Every index of the output stack is in some point's block: head h, row r sits in block (h, r / 256). -/
theorem cover (i : S16x2048x1024.Idx) :
    ∃ t : Fin cfg1.N, (cfg1.win 3).flush t = true ∧ i ∈ ((cfg1.win 3).blk t).view.set := by
  have hi0 : (i 0).val < 16 := (i 0).isLt
  have hi1 : (i 1).val < 2048 := (i 1).isLt
  have hi2 : (i 2).val < 1024 := (i 2).isLt
  obtain ⟨t, ht⟩ := blk_onto ⟨(i 0).val, hi0⟩ ⟨(i 1).val / 256, by omega⟩
  have q0 : win1_3.index t (0 : Fin 3) = (i 0).val := congrFun ht 0
  have q1 : win1_3.index t (1 : Fin 3) = (i 1).val / 256 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 1024 ≤ (i 2).val ∧ (i 2).val < win1_3.index t (2 : Fin 3) * 1024 + 1024; omega

theorem arr1_3 (c : Dev nD) :
    (dat1 (F := Ideal) V c).arrAt 3 cfg1.N = Cert.Spec.attn3 (V c main_v12) (V c main_v13) (V c main_v14) :=
  (dat1 (F := Ideal) V c).arrAt_eq_of_cover 3 (Cert.Spec.attn3 (V c main_v12) (V c main_v13) (V c main_v14))
    (fun t _ => flushed_eq V c t) cover

end Cert.KernelIdeal.Region1

end
-- ==== Proof.KValue.lean ====
/-
  From the run's last boundary back to the arguments: the result array is `Spec.G` of the seven argument arrays.

  The kernel's program flattens `x` to rows (row (b·8+h)·2048+s of the [32768, 1024] matrix is `x[b,h,s,·]`), transposes each
  weight (`Wt[d,e] = W[e,d]`), views each bias as a [1, 1024] row, runs the projection region, regroups each projection's
  rows into 16 heads of 2048 rows, runs the attention region, and regroups the 16 heads as [2, 8]. A regrouping keeps
  the row-major position, so every step is read at explicit coordinates (b, h, s, ·), where the positions agree by
  arithmetic. What the two regions leave in their output arrays is taken as hypotheses here (proved per region
  elsewhere), stated for any contents the region is entered with.
-/
import proofs.«102042_j40295383171639_1_alg».proof.Proof.Gen.KernelIdeal.Frame
import proofs.«102042_j40295383171639_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen

/-! ## Regroupings read at coordinates -/

section Regroup
variable {α : Type}

/-- Row (b·8+h)·2048+s of the flattened matrix is `x[b,h,s,·]`. -/
theorem flatten_apply (x : (⟨4, ![2, 8, 2048, 1024]⟩ : Shape).Idx → α)
    (hc : (⟨4, ![2, 8, 2048, 1024]⟩ : Shape).ShapeCasts ⟨2, ![32768, 1024]⟩)
    (b : Fin 2) (h : Fin 8) (s : Fin 2048) (d : Fin 1024) (hr : (b.val * 8 + h.val) * 2048 + s.val < 32768) :
    shapeCast ⟨2, ![32768, 1024]⟩ x hc (ix2 (⟨(b.val * 8 + h.val) * 2048 + s.val, hr⟩ : Fin 32768) d) = x (ix4 b h s d) :=
  shapeCast_apply x hc _ _ (by
    rw [Shape.rowMajor_val_four, Shape.rowMajor_val_two]
    show ((b.val * 8 + h.val) * 2048 + s.val) * 1024 + d.val = ((b.val * 8 + h.val) * 2048 + s.val) * 1024 + d.val
    rfl)

/-- Row s of head b·8+h is row (b·8+h)·2048+s of the flat matrix. -/
theorem heads_apply (y : (⟨2, ![32768, 1024]⟩ : Shape).Idx → α)
    (hc : (⟨2, ![32768, 1024]⟩ : Shape).ShapeCasts ⟨3, ![16, 2048, 1024]⟩)
    (b : Fin 2) (h : Fin 8) (s : Fin 2048) (d : Fin 1024) (hh : b.val * 8 + h.val < 16)
    (hr : (b.val * 8 + h.val) * 2048 + s.val < 32768) :
    shapeCast ⟨3, ![16, 2048, 1024]⟩ y hc (ix3 (⟨b.val * 8 + h.val, hh⟩ : Fin 16) s d)
      = y (ix2 (⟨(b.val * 8 + h.val) * 2048 + s.val, hr⟩ : Fin 32768) d) :=
  shapeCast_apply y hc _ _ (by
    rw [Shape.rowMajor_val_two, Shape.rowMajor_val_three]
    show ((b.val * 8 + h.val) * 2048 + s.val) * 1024 + d.val = ((b.val * 8 + h.val) * 2048 + s.val) * 1024 + d.val
    rfl)

/-- Entry [b,h,s,e] of the regrouped result is entry [b·8+h, s, e] of the stack of heads. -/
theorem unheads_apply (z : (⟨3, ![16, 2048, 1024]⟩ : Shape).Idx → α)
    (hc : (⟨3, ![16, 2048, 1024]⟩ : Shape).ShapeCasts ⟨4, ![2, 8, 2048, 1024]⟩)
    (b : Fin 2) (h : Fin 8) (s : Fin 2048) (e : Fin 1024) (hh : b.val * 8 + h.val < 16) :
    shapeCast ⟨4, ![2, 8, 2048, 1024]⟩ z hc (ix4 b h s e) = z (ix3 (⟨b.val * 8 + h.val, hh⟩ : Fin 16) s e) :=
  shapeCast_apply z hc _ _ (by
    rw [Shape.rowMajor_val_three, Shape.rowMajor_val_four]
    show ((b.val * 8 + h.val) * 2048 + s.val) * 1024 + e.val = ((b.val * 8 + h.val) * 2048 + s.val) * 1024 + e.val
    rfl)

end Regroup

theorem head_lt (b : Fin 2) (h : Fin 8) : b.val * 8 + h.val < 16 := by omega
theorem row_lt (b : Fin 2) (h : Fin 8) (s : Fin 2048) : (b.val * 8 + h.val) * 2048 + s.val < 32768 := by omega

variable (m : (ℓ : Loc nD τ sig) → Buf (Elt Ideal) ℓ) (ρ : Dev nD → PrngReg)

/-! ## The first host stretch: what the projection region is entered with -/

/-- The row matrix: `x` flattened (the change of float format is the identity on the extended reals). -/
theorem rows_apply (c : Dev nD) (b : Fin 2) (h : Fin 8) (s : Fin 2048) (d : Fin 1024) :
    V1 m ρ c main_v1 (ix2 (⟨(b.val * 8 + h.val) * 2048 + s.val, row_lt b h s⟩ : Fin 32768) d)
      = m ((c : Thread nD τ).loc main_arg0) (ix4 b h s d) := by
  have e : (V1 m ρ c main_v1 : S32768x1024.Idx → EReal)
      = truncf (F := Ideal) .bf16 (shapeCast S32768x1024 (m ((c : Thread nD τ).loc main_arg0) : S2x8x2048x1024.Idx → EReal)
          shapeCasts_S2x8x2048x1024_S32768x1024) bitsLt_bf16_f32 := by
    show StableHlo.after hostOps0 (W0 m ρ c) (Proc.devRef .tc main_v1) = _
    after_results
    rfl
  refine (congrFun e _).trans ?_
  exact flatten_apply _ _ b h s d _

/-- A transposed weight: entry [d, e] is `W[e, d]`. -/
theorem wq_apply (c : Dev nD) (d e : Fin 1024) :
    V1 m ρ c main_v3 (ix2 d e) = m ((c : Thread nD τ).loc main_arg1) (ix2 e d) := by
  have h : (V1 m ρ c main_v3 : S1024x1024.Idx → EReal)
      = truncf (F := Ideal) .bf16 (transpose S1024x1024 [1, 0] (m ((c : Thread nD τ).loc main_arg1) : S1024x1024.Idx → EReal)
          transposes_S1024x1024_S1024x1024_1_0) bitsLt_bf16_f32 := by
    show StableHlo.after hostOps0 (W0 m ρ c) (Proc.devRef .tc main_v3) = _
    after_results
  refine (congrFun h _).trans ?_
  exact transpose_ix2_apply _ _ d e

theorem wk_apply (c : Dev nD) (d e : Fin 1024) :
    V1 m ρ c main_v5 (ix2 d e) = m ((c : Thread nD τ).loc main_arg3) (ix2 e d) := by
  have h : (V1 m ρ c main_v5 : S1024x1024.Idx → EReal)
      = truncf (F := Ideal) .bf16 (transpose S1024x1024 [1, 0] (m ((c : Thread nD τ).loc main_arg3) : S1024x1024.Idx → EReal)
          transposes_S1024x1024_S1024x1024_1_0) bitsLt_bf16_f32 := by
    show StableHlo.after hostOps0 (W0 m ρ c) (Proc.devRef .tc main_v5) = _
    after_results
  refine (congrFun h _).trans ?_
  exact transpose_ix2_apply _ _ d e

theorem wv_apply (c : Dev nD) (d e : Fin 1024) :
    V1 m ρ c main_v7 (ix2 d e) = m ((c : Thread nD τ).loc main_arg5) (ix2 e d) := by
  have h : (V1 m ρ c main_v7 : S1024x1024.Idx → EReal)
      = truncf (F := Ideal) .bf16 (transpose S1024x1024 [1, 0] (m ((c : Thread nD τ).loc main_arg5) : S1024x1024.Idx → EReal)
          transposes_S1024x1024_S1024x1024_1_0) bitsLt_bf16_f32 := by
    show StableHlo.after hostOps0 (W0 m ρ c) (Proc.devRef .tc main_v7) = _
    after_results
  refine (congrFun h _).trans ?_
  exact transpose_ix2_apply _ _ d e

/-- A bias viewed as a one-row matrix: entry [0, e] is `bias[e]`. -/
theorem bq_apply (c : Dev nD) (u : Fin 1) (e : Fin 1024) :
    V1 m ρ c main_v8 (ix2 u e) = m ((c : Thread nD τ).loc main_arg2) (ix1 e) := by
  have h : (V1 m ρ c main_v8 : S1x1024.Idx → EReal)
      = shapeCast S1x1024 (m ((c : Thread nD τ).loc main_arg2) : S1024.Idx → EReal) shapeCasts_S1024_S1x1024 := by
    show StableHlo.after hostOps0 (W0 m ρ c) (Proc.devRef .tc main_v8) = _
    after_results
    rfl
  refine (congrFun h _).trans ?_
  exact shapeCast_a_1a_apply _ _ u e

theorem bk_apply (c : Dev nD) (u : Fin 1) (e : Fin 1024) :
    V1 m ρ c main_v9 (ix2 u e) = m ((c : Thread nD τ).loc main_arg4) (ix1 e) := by
  have h : (V1 m ρ c main_v9 : S1x1024.Idx → EReal)
      = shapeCast S1x1024 (m ((c : Thread nD τ).loc main_arg4) : S1024.Idx → EReal) shapeCasts_S1024_S1x1024 := by
    show StableHlo.after hostOps0 (W0 m ρ c) (Proc.devRef .tc main_v9) = _
    after_results
    rfl
  refine (congrFun h _).trans ?_
  exact shapeCast_a_1a_apply _ _ u e

theorem bv_apply (c : Dev nD) (u : Fin 1) (e : Fin 1024) :
    V1 m ρ c main_v10 (ix2 u e) = m ((c : Thread nD τ).loc main_arg6) (ix1 e) := by
  have h : (V1 m ρ c main_v10 : S1x1024.Idx → EReal)
      = shapeCast S1x1024 (m ((c : Thread nD τ).loc main_arg6) : S1024.Idx → EReal) shapeCasts_S1024_S1x1024 := by
    show StableHlo.after hostOps0 (W0 m ρ c) (Proc.devRef .tc main_v10) = _
    after_results
    rfl
  refine (congrFun h _).trans ?_
  exact shapeCast_a_1a_apply _ _ u e

/-! ## The middle stretch: each projection's rows regrouped into heads -/

theorem q3_apply (c : Dev nD) (b : Fin 2) (h : Fin 8) (s : Fin 2048) (d : Fin 1024) :
    V3 m ρ c main_v12 (ix3 (⟨b.val * 8 + h.val, head_lt b h⟩ : Fin 16) s d)
      = (dat0 (F := Ideal) (V1 m ρ) c).arrAt 7 cfg0.N (ix2 (⟨(b.val * 8 + h.val) * 2048 + s.val, row_lt b h s⟩ : Fin 32768) d) := by
  have e : (V3 m ρ c main_v12 : S16x2048x1024.Idx → EReal)
      = shapeCast S16x2048x1024 ((dat0 (F := Ideal) (V1 m ρ) c).arrAt 7 cfg0.N : S32768x1024.Idx → EReal)
          shapeCasts_S32768x1024_S16x2048x1024 := by
    show StableHlo.after hostOps1 (W2 m ρ c) (Proc.devRef .tc main_v12) = _
    after_results
    rw [show W2 m ρ c (Proc.devRef .tc main_v11_0) = (dat0 (F := Ideal) (V1 m ρ) c).arrAt 7 cfg0.N from W2_arr m ρ c 7]
    rfl
  refine (congrFun e _).trans ?_
  exact heads_apply _ _ b h s d _ _

theorem k3_apply (c : Dev nD) (b : Fin 2) (h : Fin 8) (s : Fin 2048) (d : Fin 1024) :
    V3 m ρ c main_v13 (ix3 (⟨b.val * 8 + h.val, head_lt b h⟩ : Fin 16) s d)
      = (dat0 (F := Ideal) (V1 m ρ) c).arrAt 8 cfg0.N (ix2 (⟨(b.val * 8 + h.val) * 2048 + s.val, row_lt b h s⟩ : Fin 32768) d) := by
  have e : (V3 m ρ c main_v13 : S16x2048x1024.Idx → EReal)
      = shapeCast S16x2048x1024 ((dat0 (F := Ideal) (V1 m ρ) c).arrAt 8 cfg0.N : S32768x1024.Idx → EReal)
          shapeCasts_S32768x1024_S16x2048x1024 := by
    show StableHlo.after hostOps1 (W2 m ρ c) (Proc.devRef .tc main_v13) = _
    after_results
    rw [show W2 m ρ c (Proc.devRef .tc main_v11_1) = (dat0 (F := Ideal) (V1 m ρ) c).arrAt 8 cfg0.N from W2_arr m ρ c 8]
    rfl
  refine (congrFun e _).trans ?_
  exact heads_apply _ _ b h s d _ _

theorem v3_apply (c : Dev nD) (b : Fin 2) (h : Fin 8) (s : Fin 2048) (d : Fin 1024) :
    V3 m ρ c main_v14 (ix3 (⟨b.val * 8 + h.val, head_lt b h⟩ : Fin 16) s d)
      = (dat0 (F := Ideal) (V1 m ρ) c).arrAt 9 cfg0.N (ix2 (⟨(b.val * 8 + h.val) * 2048 + s.val, row_lt b h s⟩ : Fin 32768) d) := by
  have e : (V3 m ρ c main_v14 : S16x2048x1024.Idx → EReal)
      = shapeCast S16x2048x1024 ((dat0 (F := Ideal) (V1 m ρ) c).arrAt 9 cfg0.N : S32768x1024.Idx → EReal)
          shapeCasts_S32768x1024_S16x2048x1024 := by
    show StableHlo.after hostOps1 (W2 m ρ c) (Proc.devRef .tc main_v14) = _
    after_results
    rw [show W2 m ρ c (Proc.devRef .tc main_v11_2) = (dat0 (F := Ideal) (V1 m ρ) c).arrAt 9 cfg0.N from W2_arr m ρ c 9]
    rfl
  refine (congrFun e _).trans ?_
  exact heads_apply _ _ b h s d _ _

/-! ## The last stretch: the heads regrouped as [2, 8] -/

theorem out_apply (c : Dev nD) (b : Fin 2) (h : Fin 8) (s : Fin 2048) (e : Fin 1024) :
    W5 m ρ c (Proc.devRef .tc main_v16) (ix4 b h s e)
      = (dat1 (F := Ideal) (V3 m ρ) c).arrAt 3 cfg1.N (ix3 (⟨b.val * 8 + h.val, head_lt b h⟩ : Fin 16) s e) := by
  have e' : (W5 m ρ c (Proc.devRef .tc main_v16) : S2x8x2048x1024.Idx → EReal)
      = shapeCast S2x8x2048x1024 ((dat1 (F := Ideal) (V3 m ρ) c).arrAt 3 cfg1.N : S16x2048x1024.Idx → EReal)
          shapeCasts_S16x2048x1024_S2x8x2048x1024 := by
    show StableHlo.after hostOps2 (W4 m ρ c) (Proc.devRef .tc main_v16) = _
    after_results
    rw [show W4 m ρ c (Proc.devRef .tc main_v15) = (dat1 (F := Ideal) (V3 m ρ) c).arrAt 3 cfg1.N from W4_arr m ρ c 3]
    rfl
  refine (congrFun e' _).trans ?_
  exact unheads_apply _ _ b h s e _

/-! ## The two steps at the reference's coordinates -/

/-- A projection of the flattened rows, read at row (b·8+h)·2048+s, is the projection at [b,h,s,·]: the row is
    `x[b,h,s,·]`, the transposed weight's column `e` is row `e` of the weight, the bias row's entry is the bias's. -/
theorem proj_apply (X : (⟨2, ![32768, 1024]⟩ : Shape).Idx → EReal) (Wt : (⟨2, ![1024, 1024]⟩ : Shape).Idx → EReal)
    (bb : (⟨2, ![1, 1024]⟩ : Shape).Idx → EReal)
    (x : (⟨4, ![2, 8, 2048, 1024]⟩ : Shape).Idx → EReal) (W : (⟨2, ![1024, 1024]⟩ : Shape).Idx → EReal)
    (bias : (⟨1, ![1024]⟩ : Shape).Idx → EReal)
    (hX : ∀ (b : Fin 2) (h : Fin 8) (s : Fin 2048) (d : Fin 1024),
      X (ix2 (⟨(b.val * 8 + h.val) * 2048 + s.val, row_lt b h s⟩ : Fin 32768) d) = x (ix4 b h s d))
    (hW : ∀ d e : Fin 1024, Wt (ix2 d e) = W (ix2 e d))
    (hb : ∀ (u : Fin 1) (e : Fin 1024), bb (ix2 u e) = bias (ix1 e))
    (b : Fin 2) (h : Fin 8) (s : Fin 2048) (e : Fin 1024) :
    Cert.Spec.proj2 X Wt bb (ix2 (⟨(b.val * 8 + h.val) * 2048 + s.val, row_lt b h s⟩ : Fin 32768) e)
      = Cert.Spec.proj4 x W bias (ix4 b h s e) := by
  show (∑ d : Fin 1024, X (ix2 (⟨(b.val * 8 + h.val) * 2048 + s.val, row_lt b h s⟩ : Fin 32768) d) * Wt (ix2 d e))
      + bb (ix2 (0 : Fin 1) e)
    = (∑ d : Fin 1024, x (ix4 b h s d) * W (ix2 e d)) + bias (ix1 e)
  rw [hb]
  exact congrArg (· + bias (ix1 e)) (Finset.sum_congr rfl fun d _ => by rw [hX, hW])

/-- The attention product on the stack of heads, read at head b·8+h, is the product at [b,h,·,·]. -/
theorem attn_apply (Q K V : (⟨3, ![16, 2048, 1024]⟩ : Shape).Idx → EReal)
    (q k v : (⟨4, ![2, 8, 2048, 1024]⟩ : Shape).Idx → EReal)
    (hQ : ∀ (b : Fin 2) (h : Fin 8) (s : Fin 2048) (d : Fin 1024),
      Q (ix3 (⟨b.val * 8 + h.val, head_lt b h⟩ : Fin 16) s d) = q (ix4 b h s d))
    (hK : ∀ (b : Fin 2) (h : Fin 8) (s : Fin 2048) (d : Fin 1024),
      K (ix3 (⟨b.val * 8 + h.val, head_lt b h⟩ : Fin 16) s d) = k (ix4 b h s d))
    (hV : ∀ (b : Fin 2) (h : Fin 8) (s : Fin 2048) (d : Fin 1024),
      V (ix3 (⟨b.val * 8 + h.val, head_lt b h⟩ : Fin 16) s d) = v (ix4 b h s d))
    (b : Fin 2) (h : Fin 8) (s : Fin 2048) (e : Fin 1024) :
    Cert.Spec.attn3 Q K V (ix3 (⟨b.val * 8 + h.val, head_lt b h⟩ : Fin 16) s e)
      = ∑ t : Fin 2048, ((∑ d : Fin 1024, q (ix4 b h s d) * k (ix4 b h t d)) * Cert.Spec.scale) * v (ix4 b h t e) := by
  show (∑ t : Fin 2048, ((∑ d : Fin 1024, Q (ix3 (⟨b.val * 8 + h.val, head_lt b h⟩ : Fin 16) s d)
        * K (ix3 (⟨b.val * 8 + h.val, head_lt b h⟩ : Fin 16) t d)) * Cert.Spec.scale)
      * V (ix3 (⟨b.val * 8 + h.val, head_lt b h⟩ : Fin 16) t e)) = _
  refine Finset.sum_congr rfl fun t _ => ?_
  rw [hV]
  exact congrArg (· * v (ix4 b h t e))
    (congrArg (· * Cert.Spec.scale) (Finset.sum_congr rfl fun d _ => by rw [hQ, hK]))

/-! ## The result -/

/-- The result array at the run's last boundary is `Spec.G` of the arguments, given what each region leaves in its
    output arrays (for any contents it is entered with). -/
theorem result_eq
    (h7 : ∀ (V : (c : Dev nD) → (b : Ref sig .tc) → Buf (Elt Ideal) ((c : Thread nD τ).loc b)) (c : Dev nD),
      (dat0 (F := Ideal) V c).arrAt 7 cfg0.N = Cert.Spec.proj2 (V c main_v1) (V c main_v3) (V c main_v8))
    (h8 : ∀ (V : (c : Dev nD) → (b : Ref sig .tc) → Buf (Elt Ideal) ((c : Thread nD τ).loc b)) (c : Dev nD),
      (dat0 (F := Ideal) V c).arrAt 8 cfg0.N = Cert.Spec.proj2 (V c main_v1) (V c main_v5) (V c main_v9))
    (h9 : ∀ (V : (c : Dev nD) → (b : Ref sig .tc) → Buf (Elt Ideal) ((c : Thread nD τ).loc b)) (c : Dev nD),
      (dat0 (F := Ideal) V c).arrAt 9 cfg0.N = Cert.Spec.proj2 (V c main_v1) (V c main_v7) (V c main_v10))
    (h3 : ∀ (V : (c : Dev nD) → (b : Ref sig .tc) → Buf (Elt Ideal) ((c : Thread nD τ).loc b)) (c : Dev nD),
      (dat1 (F := Ideal) V c).arrAt 3 cfg1.N = Cert.Spec.attn3 (V c main_v12) (V c main_v13) (V c main_v14))
    (c : Dev nD) :
    W5 m ρ c (Proc.devRef .tc main_v16)
      = Cert.Spec.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  refine funext fun (i : S2x8x2048x1024.Idx) => ?_
  obtain ⟨b, h, s, e, rfl⟩ : ∃ (b : Fin 2) (h : Fin 8) (s : Fin 2048) (e : Fin 1024), i = ix4 b h s e :=
    ⟨i 0, i 1, i 2, i 3, eq_ix4 i⟩
  refine (out_apply m ρ c b h s e).trans ?_
  rw [h3 (V3 m ρ) c]
  refine (attn_apply _ _ _
    (Cert.Spec.proj4 (m ((c : Thread nD τ).loc main_arg0)) (m ((c : Thread nD τ).loc main_arg1)) (m ((c : Thread nD τ).loc main_arg2)))
    (Cert.Spec.proj4 (m ((c : Thread nD τ).loc main_arg0)) (m ((c : Thread nD τ).loc main_arg3)) (m ((c : Thread nD τ).loc main_arg4)))
    (Cert.Spec.proj4 (m ((c : Thread nD τ).loc main_arg0)) (m ((c : Thread nD τ).loc main_arg5)) (m ((c : Thread nD τ).loc main_arg6)))
    ?_ ?_ ?_ b h s e).trans ?_
  · intro b h s d
    rw [q3_apply m ρ c b h s d, h7 (V1 m ρ) c]
    exact proj_apply _ _ _ _ _ _ (rows_apply m ρ c) (wq_apply m ρ c) (bq_apply m ρ c) b h s d
  · intro b h s d
    rw [k3_apply m ρ c b h s d, h8 (V1 m ρ) c]
    exact proj_apply _ _ _ _ _ _ (rows_apply m ρ c) (wk_apply m ρ c) (bk_apply m ρ c) b h s d
  · intro b h s d
    rw [v3_apply m ρ c b h s d, h9 (V1 m ρ) c]
    exact proj_apply _ _ _ _ _ _ (rows_apply m ρ c) (wv_apply m ρ c) (bv_apply m ρ c) b h s d
  · rfl

end Cert.KernelIdeal.KValue

end
-- ==== Proof.lean ====
/-
  The kernel computes, for x of shape [2, 8, 2048, 1024], three projections q, k, v of the rows of x (each row against a
  weight's rows, plus a bias) and then, per batch and head, the un-normalised attention product
      out[b,h,s,e] = ∑ t, ((∑ d, q[b,h,s,d] · k[b,h,t,d]) · (1/32)) · v[b,h,t,e];
  the reference computes the same with the scale spelt `1 / √1024`. Over the extended reals both are `Spec.G` of the
  arguments, with the sums grouped the same way on both sides, so no law beyond reading each operation at an index is
  used, and the precondition is never opened.

  The reference's run and its result read one operation at a time are generated (Gen/ReferenceIdeal/Run, Read);
  `RefSpec` identifies that result with `Spec.G`. The kernel's program is two regions between three stretches of host
  operations: its run with the result array named at the last boundary is `KRun`; what each region leaves in its output
  arrays is `Region0` and `Region1`; `KValue` walks from the last boundary back to the arguments. The frames of the two
  kernel programs are the generated ones; the reference's frame is its run with the result dropped. The ideal pass
  rewrote nothing, so there is nothing to preserve.
-/
import proofs.«102042_j40295383171639_1_alg».proof.Defs
import proofs.«102042_j40295383171639_1_alg».proof.Proof.Gen.Kernel
import proofs.«102042_j40295383171639_1_alg».proof.Proof.Gen.Kernel.Skeleton
import proofs.«102042_j40295383171639_1_alg».proof.Proof.Gen.Kernel.Launch
import proofs.«102042_j40295383171639_1_alg».proof.Proof.Gen.Kernel.Points
import proofs.«102042_j40295383171639_1_alg».proof.Proof.Gen.Kernel.Frame
import proofs.«102042_j40295383171639_1_alg».proof.Proof.Gen.KernelIdeal
import proofs.«102042_j40295383171639_1_alg».proof.Proof.Gen.KernelIdeal.Skeleton
import proofs.«102042_j40295383171639_1_alg».proof.Proof.Gen.KernelIdeal.Launch
import proofs.«102042_j40295383171639_1_alg».proof.Proof.Gen.KernelIdeal.Points
import proofs.«102042_j40295383171639_1_alg».proof.Proof.Gen.KernelIdeal.Frame
import proofs.«102042_j40295383171639_1_alg».proof.Proof.Gen.ReferenceIdeal
import proofs.«102042_j40295383171639_1_alg».proof.Proof.Gen.ReferenceIdeal.Run
import proofs.«102042_j40295383171639_1_alg».proof.Proof.Gen.ReferenceIdeal.Read
import proofs.«102042_j40295383171639_1_alg».proof.Proof.Gen.Pre_finite_inputs
import proofs.«102042_j40295383171639_1_alg».proof.Proof.Spec
import proofs.«102042_j40295383171639_1_alg».proof.Proof.RefSpec
import proofs.«102042_j40295383171639_1_alg».proof.Proof.Region0
import proofs.«102042_j40295383171639_1_alg».proof.Proof.Region1
import proofs.«102042_j40295383171639_1_alg».proof.Proof.KRun
import proofs.«102042_j40295383171639_1_alg».proof.Proof.KValue
import Idealize.ShloMosaic.Adequacy
import Idealize.ShloMosaic.Init

noncomputable section

namespace Cert.Proof

open Idealize.ShloMosaic Idealize.SL.Sem

/-- Both idealized programs end with the result array at `Spec.G` of the (agreeing) arguments. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KValue.result_eq m ρ Cert.KernelIdeal.Region0.arr0_7
        Cert.KernelIdeal.Region0.arr0_8 Cert.KernelIdeal.Region0.arr0_9 Cert.KernelIdeal.Region1.arr1_3 c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v17_eq, Cert.ReferenceIdeal.RefSpec.ref_eq_G,
      (hagree c).1, (hagree c).2.1, (hagree c).2.2.1, (hagree c).2.2.2.1, (hagree c).2.2.2.2.1,
      (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
